-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64 : Shape := ⟨2, ![16384, 64]⟩
abbrev S16384x16384 : Shape := ⟨2, ![16384, 16384]⟩
abbrev S64x64 : Shape := ⟨2, ![64, 64]⟩
abbrev S64 : Shape := ⟨1, ![64]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S16384x64 .f32) (main_arg1 : FVec F S16384x16384 .f32) (main_arg2 : FVec F S64x64 .f32) (main_arg3 : FVec F S64 .f32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S16384x64 : Shape := ⟨2, ![16384, 64]⟩
abbrev S16384x16384 : Shape := ⟨2, ![16384, 16384]⟩
abbrev S64x64 : Shape := ⟨2, ![64, 64]⟩
abbrev S64 : Shape := ⟨1, ![64]⟩
abbrev S1x64 : Shape := ⟨2, ![1, 64]⟩
abbrev S2048x1024 : Shape := ⟨2, ![2048, 1024]⟩
abbrev S1024x64 : Shape := ⟨2, ![1024, 64]⟩
abbrev S2048x64 : Shape := ⟨2, ![2048, 64]⟩

abbrev nBuf : Space → Nat
  | .hbm => 7
  | .vmem => 9
  | .smem => 0
  | _ => 0

abbrev bufTy : (tb : Table) → Fin (tcTables nBuf tb) → BufTy
  | .hbm, ⟨0, _⟩ => ⟨S16384x64, .f32⟩
  | .hbm, ⟨1, _⟩ => ⟨S16384x16384, .f32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S1x64, .f32⟩
  | .hbm, ⟨6, _⟩ => ⟨S16384x64, .f32⟩
  | .local _ .vmem, ⟨0, _⟩ => ⟨S2048x1024, .f32⟩
  | .local _ .vmem, ⟨1, _⟩ => ⟨S2048x1024, .f32⟩
  | .local _ .vmem, ⟨2, _⟩ => ⟨S1024x64, .f32⟩
  | .local _ .vmem, ⟨3, _⟩ => ⟨S1024x64, .f32⟩
  | .local _ .vmem, ⟨4, _⟩ => ⟨S64x64, .f32⟩
  | .local _ .vmem, ⟨5, _⟩ => ⟨S1x64, .f32⟩
  | .local _ .vmem, ⟨6, _⟩ => ⟨S2048x64, .f32⟩
  | .local _ .vmem, ⟨7, _⟩ => ⟨S2048x64, .f32⟩
  | .local _ .vmem, ⟨8, _⟩ => ⟨S2048x64, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v13 : BitVec 1 := Scalar.cmpi .eq arg1 c15_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  transposes_S64x64_S64x64_1_0 : S64x64.Transposes [1, 0] S64x64
  shapeCasts_S64_S1x64 : S64.ShapeCasts S1x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S2048x1024_S2048x1024_0_0 : ∀ a, (![0, 0] : Fin 2 → Nat) a + S2048x1024.size a ≤ S2048x1024.size a
  h_S2048x1024 : 0 < S2048x1024.numel
  bitsLt_bf16_f32 : FTy.bits .bf16 < FTy.bits .f32
  inb_S1024x64_S1024x64_0_0 : ∀ a, (![0, 0] : Fin 2 → Nat) a + S1024x64.size a ≤ S1024x64.size a
  h_S1024x64 : 0 < S1024x64.numel
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  dot_S2048x1024_S1024x64_S2048x64_1_0_0_1_n_n_wf : DotDims.WF S2048x1024 S1024x64 S2048x64 [1] [0] [0] [1] [] []
  dot_S2048x64_S64x64_S2048x64_1_0_0_1_n_n_wf : DotDims.WF S2048x64 S64x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S16384x16384.size a
  hwx0_0 : ∀ i : grid0.Coords, EltTy.bits .f32 = 32 ∨ (Rect.block (s := S16384x16384) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S16384x64.size a
  hwx0_1 : ∀ i : grid0.Coords, EltTy.bits .f32 = 32 ∨ (Rect.block (s := S16384x64) S1024x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x64.size a ≤ S16384x64.size a
  hwx0_4 : ∀ i : grid0.Coords, EltTy.bits .f32 = 32 ∨ (Rect.block (s := S16384x64) S2048x64.size (cc0_transform_4 i) (hinb0_4 i)).WholeWords (EltTy.packing .f32)

variable [Facts₀]

def dot_S2048x1024_S1024x64_S2048x64_1_0_0_1_n_n : DotDims S2048x1024 S1024x64 S2048x64 where
  lhsContracting := [1]
  rhsContracting := [0]
  lhsNonContracting := [0]
  rhsNonContracting := [1]
  lhsBatch := []
  rhsBatch := []
  wf := dot_S2048x1024_S1024x64_S2048x64_1_0_0_1_n_n_wf
def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf

abbrev win0_0 : Pipeline.Window sig grid0 :=
  Pipeline.Window.ofSpec (Memref.whole main_arg1) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S2048x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S16384x64 : Shape := ⟨2, ![16384, 64]⟩
abbrev S16384x16384 : Shape := ⟨2, ![16384, 16384]⟩
abbrev S64x64 : Shape := ⟨2, ![64, 64]⟩
abbrev S64 : Shape := ⟨1, ![64]⟩
abbrev S1x64 : Shape := ⟨2, ![1, 64]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S16384x16384, .f32⟩
  | .hbm, ⟨2, _⟩ => ⟨S64x64, .f32⟩
  | .hbm, ⟨3, _⟩ => ⟨S64, .f32⟩
  | .hbm, ⟨4, _⟩ => ⟨S16384x64, .f32⟩
  | .hbm, ⟨5, _⟩ => ⟨S64x64, .f32⟩
  | .hbm, ⟨6, _⟩ => ⟨S16384x64, .f32⟩
  | .hbm, ⟨7, _⟩ => ⟨S1x64, .f32⟩
  | .hbm, ⟨8, _⟩ => ⟨S16384x64, .f32⟩
  | .hbm, ⟨9, _⟩ => ⟨S16384x64, .f32⟩
  | .hbm, ⟨10, _⟩ => ⟨S_, .f32⟩
  | .hbm, ⟨11, _⟩ => ⟨S16384x64, .f32⟩
  | .hbm, ⟨12, _⟩ => ⟨S16384x64, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_cst : Ref sig .tc := ⟨.hbm, 10, rfl⟩
abbrev main_call0_v0 : Ref sig .tc := ⟨.hbm, 11, rfl⟩
abbrev main_v6 : Ref sig .tc := ⟨.hbm, 12, rfl⟩

abbrev nD : Nat := 1
abbrev τ : Topo := Topo.v7x

variable {F : FTy → Type} [FloatOps F]

class Facts₀ : Prop where
  transposes_S64x64_S64x64_1_0 : S64x64.Transposes [1, 0] S64x64
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S_S16384x64 : S_.BroadcastsInDim S16384x64 (![] : Fin 0 → Fin S16384x64.rank)
  dot_S16384x16384_S16384x64_S16384x64_1_0_0_1_n_n_wf : DotDims.WF S16384x16384 S16384x64 S16384x64 [1] [0] [0] [1] [] []
  dot_S16384x64_S64x64_S16384x64_1_0_0_1_n_n_wf : DotDims.WF S16384x64 S64x64 S16384x64 [1] [0] [0] [1] [] []

variable [Facts₀]

def dot_S16384x16384_S16384x64_S16384x64_1_0_0_1_n_n : DotDims S16384x16384 S16384x64 S16384x64 where
  lhsContracting := [1]
  rhsContracting := [0]
  lhsNonContracting := [0]
  rhsNonContracting := [1]
  lhsBatch := []
  rhsBatch := []
  wf := dot_S16384x16384_S16384x64_S16384x64_1_0_0_1_n_n_wf
def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf

class Facts : Prop extends Facts₀ where

variable [Facts]
-- ==== Proof.Spec.lean ====
/-
  The graph layer as ONE function of its four arguments over the extended reals, and the one law of sums that the
  kernel's tiling of the aggregation needs.

  The layer is  y[i, o] = max( (∑ c, (∑ j, adj[i, j] · x[j, c]) · W[o, c]) + b[o], 0 ).
  The kernel forms the inner sum over j tile by tile, sixteen tiles of 1024 columns each, adding each tile's partial
  sum to an accumulator that starts at zero. Over the extended reals addition is commutative and associative, so a sum
  over 16 · 1024 consecutive naturals splits into sixteen consecutive runs of 1024 (`sum_tiles`); no distributivity
  or cancellation is used, hence no finiteness of the inputs.
-/
import Idealize.ShloMosaic.Lib.ValueIdx

noncomputable section

open scoped BigOperators

namespace Cert.GraphLayer

open Idealize.ShloMosaic Idealize.ShloMosaic.ValueIdx

/-- Entry `(i, j)` of a rank-2 array by natural coordinates; zero outside the array (such entries are never used). -/
def at2 {n0 n1 : ℕ} (A : (⟨2, ![n0, n1]⟩ : Shape).Idx → EReal) (i j : ℕ) : EReal :=
  if h : i < n0 ∧ j < n1 then A (ix2 ⟨i, h.1⟩ ⟨j, h.2⟩) else 0

/-- Inside the array the natural-coordinate read is the array's entry. -/
theorem at2_val {n0 n1 : ℕ} (A : (⟨2, ![n0, n1]⟩ : Shape).Idx → EReal) (i : Fin n0) (j : Fin n1) :
    at2 A i.val j.val = A (ix2 i j) := by
  unfold at2
  rw [dif_pos ⟨i.isLt, j.isLt⟩]

/-- The neighbourhood aggregation `(adj · x)[i, c] = ∑ j, adj[i, j] · x[j, c]`. -/
def agg (A : (⟨2, ![16384, 16384]⟩ : Shape).Idx → EReal) (X : (⟨2, ![16384, 64]⟩ : Shape).Idx → EReal)
    (i : Fin 16384) (c : Fin 64) : EReal :=
  ∑ j : Fin 16384, A (ix2 i j) * X (ix2 j c)

/-- One entry of the layer's result: the aggregated row times row `o` of `W`, plus the bias, clamped below at zero. -/
def layerAt (A : (⟨2, ![16384, 16384]⟩ : Shape).Idx → EReal) (X : (⟨2, ![16384, 64]⟩ : Shape).Idx → EReal)
    (W : (⟨2, ![64, 64]⟩ : Shape).Idx → EReal) (b : (⟨1, ![64]⟩ : Shape).Idx → EReal) (i : Fin 16384) (o : Fin 64) : EReal :=
  max ((∑ c : Fin 64, agg A X i c * W (ix2 o c)) + b (ix1 o)) 0

/-- The layer's whole result array. -/
def layer (A : (⟨2, ![16384, 16384]⟩ : Shape).Idx → EReal) (X : (⟨2, ![16384, 64]⟩ : Shape).Idx → EReal)
    (W : (⟨2, ![64, 64]⟩ : Shape).Idx → EReal) (b : (⟨1, ![64]⟩ : Shape).Idx → EReal) :
    (⟨2, ![16384, 64]⟩ : Shape).Idx → EReal :=
  fun p => layerAt A X W b (p 0) (p 1)

/-- A sum over `B · n` consecutive naturals is the sum of its `n` consecutive runs of length `B`. -/
theorem sum_tiles {M : Type*} [AddCommMonoid M] (g : ℕ → M) (B : ℕ) : ∀ n : ℕ,
    ∑ s ∈ Finset.range n, ∑ k ∈ Finset.range B, g (B * s + k) = ∑ j ∈ Finset.range (B * n), g j
  | 0 => by simp
  | n + 1 => by rw [Finset.sum_range_succ, sum_tiles g B n, Nat.mul_succ, Finset.sum_range_add]

/-- The product `adj[i, j] · x[j, c]` by natural coordinates. -/
def prodAt (A : (⟨2, ![16384, 16384]⟩ : Shape).Idx → EReal) (X : (⟨2, ![16384, 64]⟩ : Shape).Idx → EReal)
    (i c : ℕ) : ℕ → EReal := fun j => at2 A i j * at2 X j c

/-- Tile `s`'s share of `(adj · x)[i, c]`: the products over columns `1024 s … 1024 s + 1023`. -/
def tileSum (A : (⟨2, ![16384, 16384]⟩ : Shape).Idx → EReal) (X : (⟨2, ![16384, 64]⟩ : Shape).Idx → EReal)
    (i c s : ℕ) : EReal := ∑ k : Fin 1024, prodAt A X i c (1024 * s + k.val)

/-- The sixteen tiles' shares add up to the aggregation. -/
theorem tiles_eq_agg (A : (⟨2, ![16384, 16384]⟩ : Shape).Idx → EReal) (X : (⟨2, ![16384, 64]⟩ : Shape).Idx → EReal)
    (i : Fin 16384) (c : Fin 64) :
    ∑ s ∈ Finset.range 16, tileSum A X i.val c.val s = agg A X i c :=
  calc ∑ s ∈ Finset.range 16, tileSum A X i.val c.val s
      = ∑ s ∈ Finset.range 16, ∑ k ∈ Finset.range 1024, prodAt A X i.val c.val (1024 * s + k) :=
        Finset.sum_congr rfl fun s _ => (Finset.sum_range fun k => prodAt A X i.val c.val (1024 * s + k)).symm
    _ = ∑ j ∈ Finset.range (1024 * 16), prodAt A X i.val c.val j := sum_tiles _ 1024 16
    _ = ∑ j : Fin 16384, prodAt A X i.val c.val j.val := Finset.sum_range _
    _ = agg A X i c := Finset.sum_congr rfl fun j _ => by
        show at2 A i.val j.val * at2 X j.val c.val = _
        rw [at2_val, at2_val]

end Cert.GraphLayer

end
-- ==== Proof.Reference.lean ====
/-
  The reference program's result, read index by index, is the layer of Spec.lean.

  The reference forms h = adj · x by one contraction over all 16384 columns, then h · Wᵀ by a contraction over the
  64 features against the transposed weights — entry (c, o) of the transpose is W[o, c] —, adds the bias broadcast
  over the rows, and takes the maximum with zero. Each stage is read at an index from the generated stage lemmas;
  what is left is to name the composed index functions by coordinates.
-/
import proofs.«165091_j86620900426036_1_alg».proof.Proof.Gen.ReferenceIdeal.Read
import proofs.«165091_j86620900426036_1_alg».proof.Proof.Spec

noncomputable section

open scoped BigOperators

namespace Cert.ReferenceIdeal.RefValue

open Cert.ReferenceIdeal Cert.ReferenceIdeal.Read Idealize.ShloMosaic Idealize.ShloMosaic.ValueIdx Cert.GraphLayer

/-- Row `r` of the aggregation meets feature `k`. -/
theorem lidx2_eq (r : Fin 16384) (o : Fin 64) (k : Fin 64) : lidx_main_v2 (ix2 r o) k = ix2 r k :=
  funext fun a => Fin.ext (by match a with | ⟨0, _⟩ => rfl | ⟨1, _⟩ => rfl)

/-- Feature `k` meets output column `o` of the transposed weights. -/
theorem ridx2_eq (r : Fin 16384) (o : Fin 64) (k : Fin 64) : ridx_main_v2 (ix2 r o) k = ix2 k o :=
  funext fun a => Fin.ext (by match a with | ⟨0, _⟩ => rfl | ⟨1, _⟩ => rfl)

/-- Row `r` of the adjacency meets column `j`. -/
theorem lidx0_eq (r : Fin 16384) (k : Fin 64) (j : Fin 16384) : lidx_main_v0 (ix2 r k) j = ix2 r j :=
  funext fun a => Fin.ext (by match a with | ⟨0, _⟩ => rfl | ⟨1, _⟩ => rfl)

/-- Node `j`'s feature `k`. -/
theorem ridx0_eq (r : Fin 16384) (k : Fin 64) (j : Fin 16384) : ridx_main_v0 (ix2 r k) j = ix2 j k :=
  funext fun a => Fin.ext (by match a with | ⟨0, _⟩ => rfl | ⟨1, _⟩ => rfl)

/-- Entry `(k, o)` of the transposed weights is entry `(o, k)` of the weights. -/
theorem tidx_eq (k : Fin 64) (o : Fin 64) : idx_main_v1 (ix2 k o) = ix2 o k :=
  funext fun a => Fin.ext (by match a with | ⟨0, _⟩ => rfl | ⟨1, _⟩ => rfl)

/-- The bias broadcast over the rows reads the bias at the column. -/
theorem bidx_eq (r : Fin 16384) (o : Fin 64) : idx_main_v3 (idx_main_v4 (ix2 r o)) = ix1 o :=
  funext fun a => Fin.ext (by match a with | ⟨0, _⟩ => rfl)

/-- THE REFERENCE IS THE LAYER: its last stage, as a function of the four arguments, is `layer adj x W b`. -/
theorem reference_eq_layer (x0 : (⟨S16384x64, .f32⟩ : BufTy).Contents (Elt Ideal)) (x1 : (⟨S16384x16384, .f32⟩ : BufTy).Contents (Elt Ideal))
    (x2 : (⟨S64x64, .f32⟩ : BufTy).Contents (Elt Ideal)) (x3 : (⟨S64, .f32⟩ : BufTy).Contents (Elt Ideal)) :
    val_main_v6 (F := Ideal) x0 x1 x2 x3 = layer x1 x0 x2 x3 := by
  funext i
  obtain ⟨r, o, rfl⟩ : ∃ (r : Fin 16384) (o : Fin 64), i = ix2 r o := ⟨i 0, i 1, eq_ix2 i⟩
  rw [val_main_v6_apply, val_main_v5_apply, val_main_v2_apply, val_main_v4_apply, val_main_v3_apply,
    val_main_call0_v0_apply, val_main_call0_cst_apply]
  simp only [val_main_v0_apply, val_main_v1_apply, lidx2_eq, ridx2_eq, lidx0_eq, ridx0_eq, tidx_eq, bidx_eq]
  show max ((∑ k : Fin 64, (∑ j : Fin 16384, x1 (ix2 r j) * x0 (ix2 j k)) * x2 (ix2 o k)) + x3 (ix1 o))
    (Ideal.ofBits .f32 0x00000000#32) = _
  rw [Ideal.ofBits_zero_f32]
  rfl

end Cert.ReferenceIdeal.RefValue

end
-- ==== Proof.Payloads.lean ====
/-
  The kernel body's three stored values, read at one index over the extended reals.

  * the reset value: zero everywhere;
  * the accumulator update: what the accumulator held plus this tile's product,
      acc[p, c] + ∑ k < 1024, adjTile[p, k] · xTile[k, c]
    (the narrowing to bf16 is the identity on extended reals, and a matrix product into a zero accumulator is the
    plain sum of products);
  * the epilogue: max( (∑ c < 64, acc[p, c] · Wt[c, o]) + bias[0, o], 0 ), the one bias row broadcast over the rows.
-/
import proofs.«165091_j86620900426036_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayValue

open Cert.KernelIdeal Cert.KernelIdeal.Gen Idealize.ShloMosaic Idealize.ShloMosaic.TcCoe Idealize.SL.Sem
open Idealize.ShloMosaic.ValueIdx

/-! ## The tile product: [2048, 1024] × [1024, 64] -/

theorem lhs_tile_0 (i : S2048x64.Idx) (q : dot_S2048x1024_S1024x64_S2048x64_1_0_0_1_n_n.contr.Idx) :
    (dot_S2048x1024_S1024x64_S2048x64_1_0_0_1_n_n.lhsIdx i q 0).val = (i 0).val := by
  unfold DotDims.lhsIdx
  rw [dif_neg (show ¬(0 : Fin S2048x1024.rank) ∈ dot_S2048x1024_S1024x64_S2048x64_1_0_0_1_n_n.lhsBatch by decide), dif_pos (show (0 : Fin S2048x1024.rank) ∈ dot_S2048x1024_S1024x64_S2048x64_1_0_0_1_n_n.lhsNonContracting by decide)]
  rfl
theorem lhs_tile_1 (i : S2048x64.Idx) (q : dot_S2048x1024_S1024x64_S2048x64_1_0_0_1_n_n.contr.Idx) :
    (dot_S2048x1024_S1024x64_S2048x64_1_0_0_1_n_n.lhsIdx i q 1).val = (q ⟨0, by decide⟩).val :=
  dot_S2048x1024_S1024x64_S2048x64_1_0_0_1_n_n.lhsIdx_val_of_single rfl i q
theorem rhs_tile_0 (i : S2048x64.Idx) (q : dot_S2048x1024_S1024x64_S2048x64_1_0_0_1_n_n.contr.Idx) :
    (dot_S2048x1024_S1024x64_S2048x64_1_0_0_1_n_n.rhsIdx i q 0).val = (q ⟨0, by decide⟩).val :=
  dot_S2048x1024_S1024x64_S2048x64_1_0_0_1_n_n.rhsIdx_val_of_single rfl i q
theorem rhs_tile_1 (i : S2048x64.Idx) (q : dot_S2048x1024_S1024x64_S2048x64_1_0_0_1_n_n.contr.Idx) :
    (dot_S2048x1024_S1024x64_S2048x64_1_0_0_1_n_n.rhsIdx i q 1).val = (i 1).val := by
  unfold DotDims.rhsIdx
  rw [dif_neg (show ¬(1 : Fin S1024x64.rank) ∈ dot_S2048x1024_S1024x64_S2048x64_1_0_0_1_n_n.rhsBatch by decide), dif_pos (show (1 : Fin S1024x64.rank) ∈ dot_S2048x1024_S1024x64_S2048x64_1_0_0_1_n_n.rhsNonContracting by decide)]
  rfl

/-- The tile product into a zero accumulator, at `(p, c)`: the sum over the tile's 1024 columns. -/
theorem tile_matmul_apply (l : FVec Ideal S2048x1024 .bf16) (r : FVec Ideal S1024x64 .bf16) (p : Fin 2048) (c : Fin 64) :
    matmul (F := Ideal) dot_S2048x1024_S1024x64_S2048x64_1_0_0_1_n_n none l r (constant S2048x64 .f32 0x00000000#32) (ix2 p c)
      = ∑ k : Fin 1024, l (ix2 p k) * r (ix2 k c) := by
  simp only [matmul]
  rw [Ideal.matmul_constant_zero_apply, ← Equiv.sum_comp (contrEquiv1 dot_S2048x1024_S1024x64_S2048x64_1_0_0_1_n_n 1024 rfl rfl).symm]
  refine Finset.sum_congr rfl fun k _ => ?_
  have hk := contrEquiv1_symm_val dot_S2048x1024_S1024x64_S2048x64_1_0_0_1_n_n 1024 rfl rfl k
  have el : dot_S2048x1024_S1024x64_S2048x64_1_0_0_1_n_n.lhsIdx (ix2 p c) ((contrEquiv1 dot_S2048x1024_S1024x64_S2048x64_1_0_0_1_n_n 1024 rfl rfl).symm k) = ix2 p k := funext fun a => Fin.ext (by
    match a with
    | ⟨0, _⟩ => exact lhs_tile_0 _ _
    | ⟨1, _⟩ => exact (lhs_tile_1 _ _).trans hk)
  have er : dot_S2048x1024_S1024x64_S2048x64_1_0_0_1_n_n.rhsIdx (ix2 p c) ((contrEquiv1 dot_S2048x1024_S1024x64_S2048x64_1_0_0_1_n_n 1024 rfl rfl).symm k) = ix2 k c := funext fun a => Fin.ext (by
    match a with
    | ⟨0, _⟩ => exact (rhs_tile_0 _ _).trans hk
    | ⟨1, _⟩ => exact rhs_tile_1 _ _)
  rw [el, er]

/-! ## The feature product: [2048, 64] × [64, 64] -/

theorem lhs_feat_0 (i : S2048x64.Idx) (q : dot_S2048x64_S64x64_S2048x64_1_0_0_1_n_n.contr.Idx) :
    (dot_S2048x64_S64x64_S2048x64_1_0_0_1_n_n.lhsIdx i q 0).val = (i 0).val := by
  unfold DotDims.lhsIdx
  rw [dif_neg (show ¬(0 : Fin S2048x64.rank) ∈ dot_S2048x64_S64x64_S2048x64_1_0_0_1_n_n.lhsBatch by decide), dif_pos (show (0 : Fin S2048x64.rank) ∈ dot_S2048x64_S64x64_S2048x64_1_0_0_1_n_n.lhsNonContracting by decide)]
  rfl
theorem lhs_feat_1 (i : S2048x64.Idx) (q : dot_S2048x64_S64x64_S2048x64_1_0_0_1_n_n.contr.Idx) :
    (dot_S2048x64_S64x64_S2048x64_1_0_0_1_n_n.lhsIdx i q 1).val = (q ⟨0, by decide⟩).val :=
  dot_S2048x64_S64x64_S2048x64_1_0_0_1_n_n.lhsIdx_val_of_single rfl i q
theorem rhs_feat_0 (i : S2048x64.Idx) (q : dot_S2048x64_S64x64_S2048x64_1_0_0_1_n_n.contr.Idx) :
    (dot_S2048x64_S64x64_S2048x64_1_0_0_1_n_n.rhsIdx i q 0).val = (q ⟨0, by decide⟩).val :=
  dot_S2048x64_S64x64_S2048x64_1_0_0_1_n_n.rhsIdx_val_of_single rfl i q
theorem rhs_feat_1 (i : S2048x64.Idx) (q : dot_S2048x64_S64x64_S2048x64_1_0_0_1_n_n.contr.Idx) :
    (dot_S2048x64_S64x64_S2048x64_1_0_0_1_n_n.rhsIdx i q 1).val = (i 1).val := by
  unfold DotDims.rhsIdx
  rw [dif_neg (show ¬(1 : Fin S64x64.rank) ∈ dot_S2048x64_S64x64_S2048x64_1_0_0_1_n_n.rhsBatch by decide), dif_pos (show (1 : Fin S64x64.rank) ∈ dot_S2048x64_S64x64_S2048x64_1_0_0_1_n_n.rhsNonContracting by decide)]
  rfl

/-- The feature product into a zero accumulator, at `(p, o)`: the sum over the 64 features. -/
theorem feat_matmul_apply (l : FVec Ideal S2048x64 .bf16) (r : FVec Ideal S64x64 .bf16) (p : Fin 2048) (o : Fin 64) :
    matmul (F := Ideal) dot_S2048x64_S64x64_S2048x64_1_0_0_1_n_n none l r (constant S2048x64 .f32 0x00000000#32) (ix2 p o)
      = ∑ c : Fin 64, l (ix2 p c) * r (ix2 c o) := by
  simp only [matmul]
  rw [Ideal.matmul_constant_zero_apply, ← Equiv.sum_comp (contrEquiv1 dot_S2048x64_S64x64_S2048x64_1_0_0_1_n_n 64 rfl rfl).symm]
  refine Finset.sum_congr rfl fun k _ => ?_
  have hk := contrEquiv1_symm_val dot_S2048x64_S64x64_S2048x64_1_0_0_1_n_n 64 rfl rfl k
  have el : dot_S2048x64_S64x64_S2048x64_1_0_0_1_n_n.lhsIdx (ix2 p o) ((contrEquiv1 dot_S2048x64_S64x64_S2048x64_1_0_0_1_n_n 64 rfl rfl).symm k) = ix2 p k := funext fun a => Fin.ext (by
    match a with
    | ⟨0, _⟩ => exact lhs_feat_0 _ _
    | ⟨1, _⟩ => exact (lhs_feat_1 _ _).trans hk)
  have er : dot_S2048x64_S64x64_S2048x64_1_0_0_1_n_n.rhsIdx (ix2 p o) ((contrEquiv1 dot_S2048x64_S64x64_S2048x64_1_0_0_1_n_n 64 rfl rfl).symm k) = ix2 k o := funext fun a => Fin.ext (by
    match a with
    | ⟨0, _⟩ => exact (rhs_feat_0 _ _).trans hk
    | ⟨1, _⟩ => exact rhs_feat_1 _ _)
  rw [el, er]

/-! ## The three stored values at an index -/

/-- The reset value is zero everywhere. -/
theorem reset_apply (y : S2048x64.Idx) : k0_pay1 (F := Ideal) y = 0 := by
  show shapeCast S2048x64 (broadcast S2048x64 (Scalar.ofBits (F := Ideal) .f32 0x00000000#32)) shapeCasts_S2048x64_S2048x64 y = 0
  rw [shapeCast_self]
  exact Ideal.ofBits_zero_f32

/-- The accumulator update at `(p, c)`: the old value plus this tile's sum of products. -/
theorem update_apply (v3 : Vec Ideal S2048x1024 .f32) (v5 : Vec Ideal S1024x64 .f32) (v7 : Vec Ideal S2048x64 .f32)
    (p : Fin 2048) (c : Fin 64) :
    k0_pay2 (F := Ideal) v3 v5 v7 (ix2 p c) = v7 (ix2 p c) + ∑ k : Fin 1024, v3 (ix2 p k) * v5 (ix2 k c) := by
  show shapeCast S2048x64 (addf v7 (matmul (F := Ideal) dot_S2048x1024_S1024x64_S2048x64_1_0_0_1_n_n none
      (truncf .bf16 v3 bitsLt_bf16_f32) (truncf .bf16 v5 bitsLt_bf16_f32) (constant S2048x64 .f32 0x00000000#32)))
    shapeCasts_S2048x64_S2048x64 (ix2 p c) = _
  rw [shapeCast_self, addf_apply, tile_matmul_apply]
  rfl

/-- The epilogue at `(p, o)`: the accumulated row against column `o` of the transposed weights, plus the bias, clamped at zero. -/
theorem epilogue_apply (v16 : Vec Ideal S2048x64 .f32) (v18 : Vec Ideal S64x64 .f32) (v22 : Vec Ideal S1x64 .f32)
    (p : Fin 2048) (o : Fin 64) :
    k0_pay3 (F := Ideal) v16 v18 v22 (ix2 p o)
      = max ((∑ c : Fin 64, v16 (ix2 p c) * v18 (ix2 c o)) + v22 (ix2 (0 : Fin 1) o)) 0 := by
  show max (matmul (F := Ideal) dot_S2048x64_S64x64_S2048x64_1_0_0_1_n_n none (truncf .bf16 v16 bitsLt_bf16_f32)
        (truncf .bf16 (shapeCast S64x64 v18 shapeCasts_S64x64_S64x64) bitsLt_bf16_f32) (constant S2048x64 .f32 0x00000000#32) (ix2 p o)
      + broadcastTo S2048x64 (shapeCast S1x64 v22 shapeCasts_S1x64_S1x64) broadcasts_S1x64_S2048x64 (ix2 p o))
    (Ideal.ofBits .f32 0x00000000#32) = _
  rw [feat_matmul_apply, shapeCast_self, shapeCast_self, broadcastTo_1b_ab_apply, Ideal.ofBits_zero_f32]
  rfl

end Cert.KernelIdeal.PayValue

end
-- ==== Proof.Pieces.lean ====
/-
  What each control case of the kernel body leaves behind, as the body's own stored values.

  The body has three cases by the position k of the grid point in its row tile's run of sixteen:
    first point (k = 0):   the accumulator is stored zero, read back, and stored again with this tile's product added;
    middle points:         the accumulator is read as the point before left it and stored with this tile's product added;
    last point (k = 15):   as a middle point, and then the updated accumulator is read back and the epilogue's value is
                           stored into the output block.
  In every case each buffer ends with one store that covers it whole, so what it holds is that store's value with the
  loads replaced by what the buffers held.
-/
import proofs.«165091_j86620900426036_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

theorem hz : (![0, 0] : Fin 2 → Nat) = fun _ => 0 := funext fun a => by fin_cases a <;> rfl

/-- First point of a run: the accumulator ends at the update of the zero block. -/
theorem scratch_first (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x64 .f32) (harg7 : arg7.IsWhole) (hc0 : cond0_0 i) (hc1 : ¬cond0_1 i)
    (x0 : Vec F S2048x1024 .f32) (x1 : Vec F S1024x64 .f32) (x2 : Vec F S64x64 .f32) (x3 : Vec F S1x64 .f32) :
    sout0_A_0 c i arg2 harg2 arg3 harg3 arg4 harg4 arg5 harg5 arg6 harg6 arg7 harg7 hc0 hc1 x0 x1 x2 x3 = k0_pay2 x0 x1 (k0_pay1 (F := F)) := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S2048x64) hz]
  simp only [View.readAt_eq_ld, harg2.read_unread, harg3.read_unread, View.ld_unit_zero (S := S2048x1024) hz,
    View.ld_unit_zero (S := S1024x64) hz, View.readCov_unit_zero (S := S2048x64) _ hz]

/-- A middle point: the accumulator ends at the update of what the point before left. -/
theorem scratch_middle (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x64 .f32) (harg7 : arg7.IsWhole) (hc0 : ¬cond0_0 i) (hc1 : ¬cond0_1 i)
    (x0 : Vec F S2048x1024 .f32) (x1 : Vec F S1024x64 .f32) (x2 : Vec F S64x64 .f32) (x3 : Vec F S1x64 .f32) (xs0 : Vec F S2048x64 .f32) :
    sout0_B_0 c i arg2 harg2 arg3 harg3 arg4 harg4 arg5 harg5 arg6 harg6 arg7 harg7 hc0 hc1 x0 x1 x2 x3 xs0 = k0_pay2 x0 x1 xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_words
  rw [View.canon_unit_zero hz]
  simp only [View.readAt_eq_ld, harg2.read_unread, harg3.read_unread, harg7.read_unread, View.ld_unit_zero (S := S2048x1024) hz,
    View.ld_unit_zero (S := S1024x64) hz, View.ld_unit_zero (S := S2048x64) hz]

/-- The last point: the accumulator likewise, -/
theorem scratch_last (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x64 .f32) (harg7 : arg7.IsWhole) (hc0 : ¬cond0_0 i) (hc1 : cond0_1 i)
    (x0 : Vec F S2048x1024 .f32) (x1 : Vec F S1024x64 .f32) (x2 : Vec F S64x64 .f32) (x3 : Vec F S1x64 .f32) (xs0 : Vec F S2048x64 .f32) :
    sout0_C_0 c i arg2 harg2 arg3 harg3 arg4 harg4 arg5 harg5 arg6 harg6 arg7 harg7 hc0 hc1 x0 x1 x2 x3 xs0 = k0_pay2 x0 x1 xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero hz]
  simp only [View.readAt_eq_ld, harg2.read_unread, harg3.read_unread, harg7.read_unread, View.ld_unit_zero (S := S2048x1024) hz,
    View.ld_unit_zero (S := S1024x64) hz, View.ld_unit_zero (S := S2048x64) hz]

/-- and the output block ends at the epilogue of the updated accumulator, the transposed weights and the bias row. -/
theorem out_last (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x64 .f32) (harg7 : arg7.IsWhole) (hc0 : ¬cond0_0 i) (hc1 : cond0_1 i)
    (x0 : Vec F S2048x1024 .f32) (x1 : Vec F S1024x64 .f32) (x2 : Vec F S64x64 .f32) (x3 : Vec F S1x64 .f32) (xs0 : Vec F S2048x64 .f32) :
    out0_C_4 c i arg2 harg2 arg3 harg3 arg4 harg4 arg5 harg5 arg6 harg6 arg7 harg7 hc0 hc1 x0 x1 x2 x3 xs0 = k0_pay3 (k0_pay2 x0 x1 xs0) x2 x3 := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero hz]
  simp only [View.readAt_eq_ld, harg2.read_unread, harg3.read_unread, harg4.read_unread, harg5.read_unread, harg7.read_unread,
    View.ld_unit_zero (S := S2048x1024) hz, View.ld_unit_zero (S := S1024x64) hz, View.ld_unit_zero (S := S2048x64) hz,
    View.ld_unit_zero (S := S64x64) hz, View.ld_unit_zero (S := S1x64) hz, View.readCov_unit_zero (S := S2048x64) _ hz]

end Cert.KernelIdeal.Pieces

end
-- ==== Proof.Blocks.lean ====
/-
  The windows' blocks, read at an index, as entries of the four argument arrays.

  Grid point t is the pair (row tile, column tile) = (t / 16, t % 16) of the 8 × 16 grid.
    * the adjacency block is rows 2048·(t / 16) …, columns 1024·(t % 16) … of adj;
    * the feature block is rows 1024·(t % 16) … of x, all 64 columns;
    * the weight block is the whole 64 × 64 transposed weight matrix the host wrote before the region: its entry
      (c, o) is W[o, c];
    * the bias block is the whole 1 × 64 reshaped bias: its entry (0, o) is b[o].
  A block's coordinate on an axis is always (block index on that axis) × (block extent) + (the coordinate inside the
  block), and the block indices are decided once over the 128 grid points.
-/
import proofs.«165091_j86620900426036_1_alg».proof.Proof.Gen.KernelIdeal.Frame
import Idealize.ShloMosaic.Lib.ValueIdx
import Idealize.ShloMosaic.Lib.ValueLayout
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- The block indices of the five windows at grid point `t`, decided over the grid. -/
theorem idx_facts : ∀ t : Fin cfg0.N,
    win0_0.index t (0 : Fin 2) = t.val / 16 ∧ win0_0.index t (1 : Fin 2) = t.val % 16
    ∧ win0_1.index t (0 : Fin 2) = t.val % 16 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val / 16 ∧ win0_4.index t (1 : Fin 2) = 0 :=
  (by decide +kernel : ∀ t : Fin grid0.N, _)

/-- The four arguments as launched, at their literal types. -/
abbrev featArr (c : Dev nD) : Vec F S16384x64 .f32 := m ((c : Thread nD τ).loc main_arg0)
abbrev adjArr (c : Dev nD) : Vec F S16384x16384 .f32 := m ((c : Thread nD τ).loc main_arg1)
abbrev wArr (c : Dev nD) : Vec F S64x64 .f32 := m ((c : Thread nD τ).loc main_arg2)
abbrev biasArr (c : Dev nD) : Vec F S64 .f32 := m ((c : Thread nD τ).loc main_arg3)

/-- The four input blocks at a grid point, at their literal types. -/
abbrev adjBlk (c : Dev nD) (t : Fin cfg0.N) : Vec F S2048x1024 .f32 := iblk m c 0 t
abbrev featBlk (c : Dev nD) (t : Fin cfg0.N) : Vec F S1024x64 .f32 := iblk m c 1 t
abbrev wtBlk (c : Dev nD) (t : Fin cfg0.N) : Vec F S64x64 .f32 := iblk m c 2 t
abbrev biasBlk (c : Dev nD) (t : Fin cfg0.N) : Vec F S1x64 .f32 := iblk m c 3 t

/-- The adjacency block's entry `y` is adj at row `2048·(t / 16) + y₀`, column `1024·(t % 16) + y₁`. -/
theorem adjBlk_apply (c : Dev nD) (t : Fin cfg0.N) (y : S2048x1024.Idx) (j : S16384x16384.Idx)
    (h0 : (j 0).val = 2048 * (t.val / 16) + (y 0).val) (h1 : (j 1).val = 1024 * (t.val % 16) + (y 1).val) :
    adjBlk m c t y = adjArr m c j := by
  obtain ⟨e0, e1, -⟩ := idx_facts t
  show iblk m c 0 t y = _
  unfold iblk
  rw [View.read_apply]
  show V m c main_arg1 _ = m (c.tc.loc main_arg1) _
  rw [V_main_arg1]
  congr 1
  funext a
  apply Fin.ext
  match a with
  | ⟨0, _⟩ => show win0_0.index t (0 : Fin 2) * 2048 + 1 * (y 0).val = (j 0).val; omega
  | ⟨1, _⟩ => show win0_0.index t (1 : Fin 2) * 1024 + 1 * (y 1).val = (j 1).val; omega

/-- The feature block's entry `y` is x at row `1024·(t % 16) + y₀`, column `y₁`. -/
theorem featBlk_apply (c : Dev nD) (t : Fin cfg0.N) (y : S1024x64.Idx) (j : S16384x64.Idx)
    (h0 : (j 0).val = 1024 * (t.val % 16) + (y 0).val) (h1 : (j 1).val = (y 1).val) :
    featBlk m c t y = featArr m c j := by
  obtain ⟨-, -, e0, e1, -⟩ := idx_facts t
  show iblk m c 1 t y = _
  unfold iblk
  rw [View.read_apply]
  show V m c main_arg0 _ = m (c.tc.loc main_arg0) _
  rw [V_main_arg0]
  congr 1
  funext a
  apply Fin.ext
  match a with
  | ⟨0, _⟩ => show win0_1.index t (0 : Fin 2) * 1024 + 1 * (y 0).val = (j 0).val; omega
  | ⟨1, _⟩ => show win0_1.index t (1 : Fin 2) * 64 + 1 * (y 1).val = (j 1).val; omega

/-- Before the region the host transposes the weights: -/
theorem wt_entry (c : Dev nD) :
    (V m c main_v0 : S64x64.Idx → Elt F .f32) = transpose S64x64 [1, 0] (wArr m c) transposes_S64x64_S64x64_1_0 := by
  dsimp only [V, hostOps0]; after_results

/-- and reshapes the bias to one row. -/
theorem bias_entry (c : Dev nD) :
    (V m c main_v1 : S1x64.Idx → Elt F .f32) = shapeCast S1x64 (biasArr m c) shapeCasts_S64_S1x64 := by
  dsimp only [V, hostOps0]; after_results; rfl

/-- The weight block's entry `(cc, o)` is `W[o, cc]`. -/
theorem wtBlk_apply (c : Dev nD) (t : Fin cfg0.N) (cc o : Fin 64) :
    wtBlk m c t (ix2 cc o) = wArr m c (ix2 o cc) := by
  obtain ⟨-, -, -, -, e0, e1, -⟩ := idx_facts t
  show iblk m c 2 t (ix2 cc o) = _
  unfold iblk
  rw [View.read_apply]
  show V m c main_v0 _ = _
  rw [wt_entry, ← transpose_ix2_apply (wArr m c) transposes_S64x64_S64x64_1_0 cc o]
  congr 1
  funext a
  apply Fin.ext
  match a with
  | ⟨0, _⟩ => show win0_2.index t (0 : Fin 2) * 64 + 1 * cc.val = cc.val; omega
  | ⟨1, _⟩ => show win0_2.index t (1 : Fin 2) * 64 + 1 * o.val = o.val; omega

/-- The bias block's entry `(0, o)` is `b[o]`. -/
theorem biasBlk_apply (c : Dev nD) (t : Fin cfg0.N) (o : Fin 64) :
    biasBlk m c t (ix2 (0 : Fin 1) o) = biasArr m c (ix1 o) := by
  obtain ⟨-, -, -, -, -, -, e0, e1, -⟩ := idx_facts t
  show iblk m c 3 t (ix2 (0 : Fin 1) o) = _
  unfold iblk
  rw [View.read_apply]
  show V m c main_v1 _ = _
  rw [bias_entry, ← shapeCast_a_1a_apply (biasArr m c) shapeCasts_S64_S1x64 (0 : Fin 1) o]
  congr 1
  funext a
  apply Fin.ext
  match a with
  | ⟨0, _⟩ => show win0_3.index t (0 : Fin 2) * 1 + 1 * 0 = 0; omega
  | ⟨1, _⟩ => show win0_3.index t (1 : Fin 2) * 64 + 1 * o.val = o.val; omega

end Cert.KernelIdeal.Blocks

end
-- ==== Proof.Accumulator.lean ====
/-
  The accumulator after any grid point.

  Within the run of sixteen points of one row tile the accumulator is reset at the first point and each point adds its
  tile's product. At block entry (p, c) the product of tile s is
      ∑ k < 1024, adj[2048·q + p, 1024·s + k] · x[1024·s + k, c]          (q the row tile),
  so after the point at position j of its run the accumulator holds the sum of these over s = 0 … j. The generated value
  leg states the accumulator as the fold of the per-point step from the run's reset; the step at every point is "add the
  point's addend" (Pieces, Payloads, Blocks), and the library unrolls such a fold to zero plus the sum of the addends.
-/
import proofs.«165091_j86620900426036_1_alg».proof.Proof.Gen.KernelIdeal.Value
import proofs.«165091_j86620900426036_1_alg».proof.Proof.Spec
import proofs.«165091_j86620900426036_1_alg».proof.Proof.Payloads
import proofs.«165091_j86620900426036_1_alg».proof.Proof.Pieces
import proofs.«165091_j86620900426036_1_alg».proof.Proof.Blocks

noncomputable section

open scoped BigOperators

namespace Cert.KernelIdeal.Acc

open Cert.KernelIdeal Cert.KernelIdeal.Gen Cert.KernelIdeal.Value Idealize.ShloMosaic Idealize.ShloMosaic.TcCoe Idealize.SL.Sem
open Idealize.ShloMosaic.ValueIdx Cert.GraphLayer Cert.KernelIdeal.Blocks Cert.KernelIdeal.Pieces Cert.KernelIdeal.PayValue

variable (m : (ℓ : Loc nD τ sig) → Buf (Elt Ideal) ℓ)

/-- Grid point `n`'s addend at block entry `y`: its tile's share of `(adj · x)` at the entry's row of the array. -/
def addend (c : Dev nD) (n : ℕ) (y : S2048x64.Idx) : EReal :=
  tileSum (adjArr m c) (featArr m c) (2048 * (n / 16) + (y 0).val) (y 1).val (n % 16)

/-- The update at point `t` of any accumulator contents adds the point's addend, entry by entry. -/
theorem update_eq (c : Dev nD) (t : Fin cfg0.N) (acc : Vec Ideal S2048x64 .f32) (y : S2048x64.Idx) :
    k0_pay2 (F := Ideal) (adjBlk m c t) (featBlk m c t) acc y = acc y + addend m c t.val y := by
  obtain ⟨p, cc, rfl⟩ : ∃ (p : Fin 2048) (cc : Fin 64), y = ix2 p cc := ⟨y 0, y 1, eq_ix2 y⟩
  have ht : t.val < 128 := lt_of_lt_of_eq t.isLt N_0
  rw [update_apply]
  congr 1
  unfold addend tileSum prodAt
  refine Finset.sum_congr rfl fun k _ => ?_
  have hp : p.val < 2048 := p.isLt
  have hk : k.val < 1024 := k.isLt
  have hc : cc.val < 64 := cc.isLt
  have hA : 2048 * (t.val / 16) + p.val < 16384 ∧ 1024 * (t.val % 16) + k.val < 16384 := by omega
  have hX : 1024 * (t.val % 16) + k.val < 16384 ∧ cc.val < 64 := by omega
  show adjBlk m c t (ix2 p k) * featBlk m c t (ix2 k cc)
    = at2 (adjArr m c) (2048 * (t.val / 16) + p.val) (1024 * (t.val % 16) + k.val)
      * at2 (featArr m c) (1024 * (t.val % 16) + k.val) cc.val
  unfold at2
  rw [dif_pos hA, dif_pos hX,
    adjBlk_apply m c t (ix2 p k) (ix2 ⟨2048 * (t.val / 16) + p.val, hA.1⟩ ⟨1024 * (t.val % 16) + k.val, hA.2⟩) rfl rfl,
    featBlk_apply m c t (ix2 k cc) (ix2 ⟨1024 * (t.val % 16) + k.val, hX.1⟩ ⟨cc.val, hX.2⟩) rfl rfl]

/-- The step at the first point of a run is the update of the zero block; -/
theorem step_first (c : Dev nD) (n : ℕ) (hb : n < cfg0.N) (h0 : n % 16 = 0) (acc : Vec Ideal S2048x64 .f32) :
    scAt0_0 m c n hb acc = k0_pay2 (F := Ideal) (adjBlk m c ⟨n, hb⟩) (featBlk m c ⟨n, hb⟩) (k0_pay1 (F := Ideal)) := by
  have h1 : ¬n % 16 = 15 := by omega
  unfold scAt0_0
  rw [dif_pos h0, dif_neg h1]
  exact scratch_first c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N))

/-- at a middle point the update of what the point before left; -/
theorem step_middle (c : Dev nD) (n : ℕ) (hb : n < cfg0.N) (h0 : ¬n % 16 = 0) (h1 : ¬n % 16 = 15) (acc : Vec Ideal S2048x64 .f32) :
    scAt0_0 m c n hb acc = k0_pay2 (F := Ideal) (adjBlk m c ⟨n, hb⟩) (featBlk m c ⟨n, hb⟩) acc := by
  unfold scAt0_0
  rw [dif_neg h0, dif_neg h1]
  exact scratch_middle c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc

/-- and at the last point the same. -/
theorem step_last (c : Dev nD) (n : ℕ) (hb : n < cfg0.N) (h0 : ¬n % 16 = 0) (h1 : n % 16 = 15) (acc : Vec Ideal S2048x64 .f32) :
    scAt0_0 m c n hb acc = k0_pay2 (F := Ideal) (adjBlk m c ⟨n, hb⟩) (featBlk m c ⟨n, hb⟩) acc := by
  unfold scAt0_0
  rw [dif_neg h0, dif_pos h1]
  exact scratch_last c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc

/-- THE ACCUMULATOR after point `t`, entry by entry: the addends of its run's points up to `t`. -/
theorem acc_apply (c : Dev nD) (t : Fin cfg0.N) (y : S2048x64.Idx) :
    (outsAt0 m c t.val t.isLt).2 y = ∑ s ∈ Finset.range (t.val % 16 + 1), addend m c (16 * (t.val / 16) + s) y := by
  have ht : t.val < 128 := lt_of_lt_of_eq t.isLt N_0
  rw [soutsAt0_0_eq m c t]
  have key := Pipeline.accAt_add_apply (N := cfg0.N)
    (fun n h => scAt0_0 m c n h (VS0_0.read (Elt Ideal) VS0_0.junk)) (scAt0_0 m c)
    (fun _ => (0 : EReal)) (addend m c) (16 * (t.val / 16)) 15
    (fun h i => by
      show scAt0_0 m c (16 * (t.val / 16)) h _ i = 0 + addend m c (16 * (t.val / 16)) i
      rw [step_first m c _ h (by omega), update_eq m c ⟨16 * (t.val / 16), h⟩, reset_apply])
    (fun n h acc i hbn hne => by
      have h0 : ¬n % 16 = 0 := by omega
      by_cases h1 : n % 16 = 15
      · rw [step_last m c n h h0 h1]; exact update_eq m c ⟨n, h⟩ acc i
      · rw [step_middle m c n h h0 h1]; exact update_eq m c ⟨n, h⟩ acc i)
    (t.val % 16) (by omega) (by have h2 := Nat.div_add_mod t.val 16; have := t.isLt; omega) y
  rw [key, zero_add]

end Cert.KernelIdeal.Acc

end
-- ==== Proof.Result.lean ====
/-
  The kernel's result array is the layer of its arguments.

  Only the last point of each row tile's run writes the output block back. There the accumulator holds all sixteen
  tiles' addends, which add up to the aggregation's rows 2048·q … 2048·q + 2047 (the law of Spec.lean), and the epilogue
  turns row p of the block into row 2048·q + p of the layer: the accumulated row against the transposed weights — entry
  (c, o) of the weight block is W[o, c] —, plus the bias, clamped at zero. The eight written blocks are the eight row
  tiles of the [16384, 64] result, so together they cover it.
-/
import proofs.«165091_j86620900426036_1_alg».proof.Proof.Accumulator

noncomputable section

open scoped BigOperators

namespace Cert.KernelIdeal.Result

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx Cert.GraphLayer Cert.KernelIdeal.Blocks Cert.KernelIdeal.Pieces Cert.KernelIdeal.PayValue
open Cert.KernelIdeal.Acc

variable (m : (ℓ : Loc nD τ sig) → Buf (Elt Ideal) ℓ) (ρ : Dev nD → PrngReg)

/-- The layer of the four arguments as launched, as contents of the result array. -/
abbrev result (c : Dev nD) : Buf (Elt Ideal) ((c : Thread nD τ).loc main_v2) :=
  layer (adjArr m c) (featArr m c) (wArr m c) (biasArr m c)

/-- At the last point of a run the update of what the point before left IS what the point leaves in the accumulator. -/
theorem last_acc (c : Dev nD) (t : Fin cfg0.N) (h0 : ¬t.val % 16 = 0) (h1 : t.val % 16 = 15) :
    k0_pay2 (F := Ideal) (adjBlk m c t) (featBlk m c t) ((outsAt0 m c (t.val - 1) (Nat.lt_of_le_of_lt (Nat.sub_le _ _) t.isLt)).2)
      = (outsAt0 m c t.val t.isLt).2 := by
  rw [outsAt0_C m c t h0 h1]
  dsimp only
  exact (scratch_last c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2).symm

/-- ONE ENTRY of the block the last point of row tile `t / 16` writes: row `p`, column `o` of the block is the
    layer at row `2048·(t / 16) + p`, column `o`. -/
theorem block_entry (c : Dev nD) (t : Fin cfg0.N) (h1 : t.val % 16 = 15) (p : Fin 2048) (o : Fin 64) (i : Fin 16384)
    (hi : i.val = 2048 * (t.val / 16) + p.val) :
    k0_pay3 (F := Ideal) ((outsAt0 m c t.val t.isLt).2) (wtBlk m c t) (biasBlk m c t) (ix2 p o)
      = layerAt (adjArr m c) (featArr m c) (wArr m c) (biasArr m c) i o := by
  rw [epilogue_apply]
  unfold layerAt
  rw [biasBlk_apply]
  refine congrArg (fun z : EReal => max (z + biasArr m c (ix1 o)) 0) ?_
  refine Finset.sum_congr rfl fun cc _ => ?_
  rw [wtBlk_apply, acc_apply m c t (ix2 p cc), h1]
  refine congrArg (fun z : EReal => z * wArr m c (ix2 o cc)) ?_
  rw [← tiles_eq_agg (adjArr m c) (featArr m c) i cc]
  refine Finset.sum_congr rfl fun s hs => ?_
  have hs' : s < 16 := Finset.mem_range.mp hs
  have e1 : (16 * (t.val / 16) + s) / 16 = t.val / 16 := by omega
  have e2 : (16 * (t.val / 16) + s) % 16 = s := by omega
  show tileSum (adjArr m c) (featArr m c) (2048 * ((16 * (t.val / 16) + s) / 16) + p.val) cc.val ((16 * (t.val / 16) + s) % 16)
    = tileSum (adjArr m c) (featArr m c) i.val cc.val s
  rw [e1, e2, hi]

/-- WHAT A WRITING POINT WRITES BACK is its block of the layer. -/
theorem flushed_eq (c : Dev nD) (t : Fin cfg0.N) (hf : (cfg0.win 4).flush t = true) :
    (dats m 0 c).flushed 4 t = ((cfg0.win 4).blk t).view.read (Elt Ideal) (result m c) := by
  have h1 : t.val % 16 = 15 := (flush0_4 t).mp hf
  have h0 : ¬t.val % 16 = 0 := by omega
  have ht : t.val < 128 := lt_of_lt_of_eq t.isLt N_0
  obtain ⟨-, -, -, -, -, -, -, -, e0, e1⟩ := Blocks.idx_facts t
  rw [flushed4_C m c t h0 h1,
    out_last c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2]
  funext y
  obtain ⟨p, o, rfl⟩ : ∃ (p : Fin 2048) (o : Fin 64), y = ix2 p o := ⟨y 0, y 1, eq_ix2 y⟩
  have hp : p.val < 2048 := p.isLt
  show k0_pay3 (F := Ideal) (k0_pay2 (F := Ideal) (adjBlk m c t) (featBlk m c t) ((outsAt0 m c (t.val - 1) (Nat.lt_of_le_of_lt (Nat.sub_le _ _) t.isLt)).2))
      (wtBlk m c t) (biasBlk m c t) (ix2 p o)
    = layerAt (adjArr m c) (featArr m c) (wArr m c) (biasArr m c)
      ((((cfg0.win 4).blk t).view.emb (ix2 p o)) 0) ((((cfg0.win 4).blk t).view.emb (ix2 p o)) 1)
  rw [last_acc m c t h0 h1, block_entry m c t h1 p o ⟨2048 * (t.val / 16) + p.val, by omega⟩ rfl]
  have ei : (⟨2048 * (t.val / 16) + p.val, by omega⟩ : Fin 16384) = (((cfg0.win 4).blk t).view.emb (ix2 p o)) 0 :=
    Fin.ext (by show 2048 * (t.val / 16) + p.val = win0_4.index t (0 : Fin 2) * 2048 + 1 * p.val; omega)
  have eo : o = (((cfg0.win 4).blk t).view.emb (ix2 p o)) 1 :=
    Fin.ext (by show o.val = win0_4.index t (1 : Fin 2) * 64 + 1 * o.val; omega)
  exact congrArg₂ (layerAt (adjArr m c) (featArr m c) (wArr m c) (biasArr m c)) ei eo

/-- An index of the result array is in point `t`'s block iff each coordinate is in the block's range on its axis. -/
theorem mem_blk (t : Fin cfg0.N) (i : S16384x64.Idx) :
    i ∈ ((cfg0.win 4).blk t).view.set ↔ ∀ a : Fin 2, win0_4.index t a * S2048x64.size a ≤ (i a).val ∧ (i a).val < win0_4.index t a * S2048x64.size a + S2048x64.size a := by
  show i ∈ ((View.whole main_v2).slice (win0_4.rect t)).set ↔ _
  rw [View.set_slice_whole, Rect.mem_set_unit]
  exact Iff.rfl

/-- Every row of the result lies in the block written at the last point of its row tile's run. -/
theorem cover (i : S16384x64.Idx) : ∃ t : Fin cfg0.N, (cfg0.win 4).flush t = true ∧ i ∈ ((cfg0.win 4).blk t).view.set := by
  have hi0 : (i 0).val < 16384 := (i 0).isLt
  have hi1 : (i 1).val < 64 := (i 1).isLt
  have hN : cfg0.N = 128 := N_0
  obtain ⟨t, htv⟩ : ∃ t : Fin cfg0.N, t.val = 16 * ((i 0).val / 2048) + 15 := ⟨⟨16 * ((i 0).val / 2048) + 15, by rw [hN]; omega⟩, rfl⟩
  obtain ⟨-, -, -, -, -, -, -, -, e0, e1⟩ := Blocks.idx_facts t
  refine ⟨t, (flush0_4 t).mpr (by omega), ?_⟩
  rw [mem_blk]
  intro a
  match a with
  | ⟨0, _⟩ => show win0_4.index t (0 : Fin 2) * 2048 ≤ (i 0).val ∧ (i 0).val < win0_4.index t (0 : Fin 2) * 2048 + 2048; omega
  | ⟨1, _⟩ => show win0_4.index t (1 : Fin 2) * 64 ≤ (i 1).val ∧ (i 1).val < win0_4.index t (1 : Fin 2) * 64 + 64; omega

/-- THE RESULT ARRAY after the run is the layer of the arguments. -/
theorem final (c : Dev nD) : (dats m 0 c).arrAt 4 cfg0.N = result m c :=
  (dats m 0 c).arrAt_eq_of_cover 4 (result m c) (flushed_eq m c) cover

/-- The kernel's run, read: the result array at the layer, the four arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Result

end
-- ==== Proof.lean ====
/-
  A graph layer  y = relu((adj · x) · Wᵀ + b)  over 16384 nodes with 64 features: the tiled kernel against the plain
  reference, equal over the extended reals.

  The reference contracts adj · x over all 16384 columns at once. The kernel walks an 8 × 16 grid: for each of the 8 row
  tiles of 2048 rows it adds the 16 column tiles' products (2048 × 1024 times 1024 × 64) into an accumulator that is
  zeroed at the tile's first point, and at the tile's last point multiplies the accumulated rows by the transposed
  weights, adds the bias and clamps at zero. Over the extended reals the narrowing of the matrix operands is the identity
  and a product into a zero accumulator is the sum of products, so the two sides differ only in how the sum over the
  16384 columns is grouped — sixteen consecutive runs of 1024 against one run — and addition of extended reals is
  commutative and associative. Nothing else is used: no distributivity, no cancellation, hence not the finiteness of the
  inputs.

  Modules: Spec (the layer as one function, the regrouping law), Reference (the reference's stages are that function),
  Payloads (the kernel's three stored values at an index), Pieces (what each control case leaves), Blocks (the windows'
  blocks as entries of the arguments), Accumulator (the accumulator after any point), Result (the result array).
  The kernel's idealization rewrote nothing, so `preserves` is `True`.
-/
import proofs.«165091_j86620900426036_1_alg».proof.Defs
import proofs.«165091_j86620900426036_1_alg».proof.Proof.Gen.Kernel
import proofs.«165091_j86620900426036_1_alg».proof.Proof.Gen.Kernel.Skeleton
import proofs.«165091_j86620900426036_1_alg».proof.Proof.Gen.Kernel.Launch
import proofs.«165091_j86620900426036_1_alg».proof.Proof.Gen.Kernel.Points
import proofs.«165091_j86620900426036_1_alg».proof.Proof.Gen.Kernel.Frame
import proofs.«165091_j86620900426036_1_alg».proof.Proof.Gen.KernelIdeal
import proofs.«165091_j86620900426036_1_alg».proof.Proof.Gen.KernelIdeal.Skeleton
import proofs.«165091_j86620900426036_1_alg».proof.Proof.Gen.KernelIdeal.Launch
import proofs.«165091_j86620900426036_1_alg».proof.Proof.Gen.KernelIdeal.Points
import proofs.«165091_j86620900426036_1_alg».proof.Proof.Gen.KernelIdeal.Frame
import proofs.«165091_j86620900426036_1_alg».proof.Proof.Gen.ReferenceIdeal
import proofs.«165091_j86620900426036_1_alg».proof.Proof.Gen.Pre_finite_inputs
import proofs.«165091_j86620900426036_1_alg».proof.Proof.Gen.KernelIdeal.Value
import proofs.«165091_j86620900426036_1_alg».proof.Proof.Gen.ReferenceIdeal.Run
import proofs.«165091_j86620900426036_1_alg».proof.Proof.Gen.ReferenceIdeal.Read
import proofs.«165091_j86620900426036_1_alg».proof.Proof.Reference
import proofs.«165091_j86620900426036_1_alg».proof.Proof.Result
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference is a straight line of host operations: its run, with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Over the extended reals the kernel's result array ends at the layer of its arguments (Result) and the reference's at
    the layer of its own (Reference); the arguments agree. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.RefValue.reference_eq_layer,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
